-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S1x128 : Shape := ⟨2, ![1, 128]⟩

abbrev nBuf : Space → Nat
  | .hbm => 61
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S128x128, .f32⟩
  | .hbm, ⟨60, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Two layers of a mean-aggregating graph convolution over 100000 nodes with 128 features, as one function of the
  node features, the weights, and two functions left abstract: the neighbourhood sum (for every node, the sum of the
  rows of its in-neighbours) and the in-degree of a node.

  One layer sends the node features H to   post (mean(H) · Wa + H · Wb + b),   where row r of mean(H) is row r of the
  neighbourhood sum of H divided by max(in-degree r, 1), the matrices Wa, Wb are 128 × 128 and b is a row of 128 entries
  added to every row. All of it is read on the extended reals.

  Two algebraic facts join the two spellings of a layer that the programs use:
  * s · (1 / c) = s / c for every extended real s when c = max(a, 1): such a c is at least 1, so it is not zero, and
    off zero the quotient IS the product with the inverse;
  * (u + v) + b = (u + b) + v: addition of extended reals is commutative and associative.
-/
import Idealize.ShloMosaic.PureOps.Ideal.Laws
import Idealize.ShloMosaic.Lib.ValueIdx

noncomputable section

open scoped BigOperators

namespace Cert.Sage

open Idealize.ShloMosaic Idealize.ShloMosaic.ValueIdx

/-- Node features: 100000 rows of 128 entries. -/
abbrev SN : Shape := ⟨2, ![100000, 128]⟩
/-- A weight matrix. -/
abbrev SD : Shape := ⟨2, ![128, 128]⟩
/-- A bias row. -/
abbrev SB : Shape := ⟨1, ![128]⟩
/-- One number per node. -/
abbrev SC : Shape := ⟨1, ![100000]⟩

/-- Entry (r, j) of a layer's combine step: post ((Σₖ A r k · Wa k j + Σₖ X r k · Wb k j) + b j). -/
def combineAt (post : EReal → EReal) (A X : SN.Idx → EReal) (Wa : SD.Idx → EReal) (b : SB.Idx → EReal)
    (Wb : SD.Idx → EReal) (r : Fin 100000) (j : Fin 128) : EReal :=
  post ((∑ k : Fin 128, A (ix2 r k) * Wa (ix2 k j) + ∑ k : Fin 128, X (ix2 r k) * Wb (ix2 k j)) + b (ix1 j))

/-- The combine step as a whole array. -/
def combine (post : EReal → EReal) (A X : SN.Idx → EReal) (Wa : SD.Idx → EReal) (b : SB.Idx → EReal)
    (Wb : SD.Idx → EReal) : SN.Idx → EReal :=
  fun i => combineAt post A X Wa b Wb ⟨(i 0).val, (i 0).isLt⟩ ⟨(i 1).val, (i 1).isLt⟩

theorem combine_ix2 (post : EReal → EReal) (A X : SN.Idx → EReal) (Wa : SD.Idx → EReal) (b : SB.Idx → EReal)
    (Wb : SD.Idx → EReal) (r : Fin 100000) (j : Fin 128) :
    combine post A X Wa b Wb (ix2 r j) = combineAt post A X Wa b Wb r j := rfl

/-- The larger of a value and zero. -/
def relu (v : EReal) : EReal := max v 0

/-- Row r of the mean over in-neighbours: row r of the neighbourhood sum divided by max(in-degree r, 1). -/
def meanAgg (agg : (SN.Idx → EReal) → SN.Idx → EReal) (cnt : SC.Idx → EReal) (H : SN.Idx → EReal) : SN.Idx → EReal :=
  fun i => Ideal.div (agg H i) (max (cnt (ix1 ⟨(i 0).val, (i 0).isLt⟩)) 1)

theorem meanAgg_ix2 (agg : (SN.Idx → EReal) → SN.Idx → EReal) (cnt : SC.Idx → EReal) (H : SN.Idx → EReal)
    (r : Fin 100000) (j : Fin 128) :
    meanAgg agg cnt H (ix2 r j) = Ideal.div (agg H (ix2 r j)) (max (cnt (ix1 r)) 1) := rfl

/-- The two layers: a rectified one, then a plain one on its result. -/
def net (agg : (SN.Idx → EReal) → SN.Idx → EReal) (cnt : SC.Idx → EReal) (x : SN.Idx → EReal)
    (Wa1 : SD.Idx → EReal) (b1 : SB.Idx → EReal) (Wb1 : SD.Idx → EReal)
    (Wa2 : SD.Idx → EReal) (b2 : SB.Idx → EReal) (Wb2 : SD.Idx → EReal) : SN.Idx → EReal :=
  combine id (meanAgg agg cnt (combine relu (meanAgg agg cnt x) x Wa1 b1 Wb1))
    (combine relu (meanAgg agg cnt x) x Wa1 b1 Wb1) Wa2 b2 Wb2

/-- The product with the reciprocal of max(a, 1) is the quotient by it, for every extended real s. -/
theorem mul_recip_eq_div (s a : EReal) : s * Ideal.div 1 (max a 1) = Ideal.div s (max a 1) := by
  have hc : max a 1 ≠ 0 := ne_of_gt (lt_of_lt_of_le zero_lt_one (le_max_right a 1))
  rw [Ideal.div, if_neg hc, Ideal.div, if_neg hc, one_mul]

/-- The bias may be added before or after the second product. -/
theorem add_bias_comm (u v b : EReal) : (u + v) + b = (u + b) + v := add_right_comm u v b

end Cert.Sage

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KHost0.lean ====
/-
  The kernel program's first host stretch, read: what every array the program uses later holds when the first kernel
  region is entered, as terms of the launch contents.

  The program forms, for every node, the neighbourhood sum of the node features times the reciprocal
  1 / max(in-degree, 1); that product is the mean over in-neighbours (Spec.lean: the product with the reciprocal of
  max(a, 1) is the quotient by it).
-/
import proofs.«121338_j34411277976464_1_alg».proof.Proof.Gen.KernelIdeal.Frame
import proofs.«121338_j34411277976464_1_alg».proof.Proof.Spec
import proofs.«121338_j34411277976464_1_alg».proof.Proof.LibRowLayers
import Idealize.ShloMosaic.Lib.StableHlo.Run

set_option maxRecDepth 16384

noncomputable section

open scoped BigOperators

namespace Cert.KernelIdeal.Host

open Cert.KernelIdeal Cert.KernelIdeal.Gen Cert.Sage
open Idealize.ShloMosaic Idealize.ShloMosaic.TcCoe Idealize.ShloMosaic.ValueIdx Idealize.SL.Sem Idealize.ShloMosaic.StableHlo

/-- The source node of every edge (row 0 of the edge list). -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The destination node of every edge (row 1 of the edge list). -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The source nodes with a negative number counted from the end (100000 added). -/
def srcWrapped (ei : (⟨S2x1600000, .i32⟩ : BufTy).Contents (Elt Ideal)) : (⟨S1600000, .i32⟩ : BufTy).Contents (Elt Ideal) :=
  select (cmpi .slt (src ei) (broadcastInDim S1600000 ![] bcast_S_S1600000 (constantI S_ 32 0#32)))
    (addi (src ei) (broadcastInDim S1600000 ![] bcast_S_S1600000 (constantI S_ 32 100000#32))) (src ei)

/-- The neighbourhood sum: the rows of H gathered by the edges' sources and added into the rows of a zero matrix by
    the edges' destinations. -/
def agg (ei : (⟨S2x1600000, .i32⟩ : BufTy).Contents (Elt Ideal)) (H : SN.Idx → EReal) : SN.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst ei))
    (Host.gather gather_S100000x128_S1600000x1_S1600000x128_1_0_n_n_0_1_1128 H
      (broadcastInDim S1600000x1 ![0] bcast_S1600000_S1600000x1_0 (srcWrapped ei)))

/-- The in-degree: a one for every edge added into a zero vector by the edges' destinations. -/
def cnt (ei : (⟨S2x1600000, .i32⟩ : BufTy).Contents (Elt Ideal)) : SC.Idx → EReal :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dst ei))
    (broadcastInDim S1600000 ![] bcast_S_S1600000 (constant (F := Ideal) S_ .f32 0x3F800000#32))

/-- One over max(in-degree, 1), as a column: one entry per node. -/
def invCol (ei : (⟨S2x1600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf (cnt ei) (broadcastInDim S100000 ![] bcast_S_S100000 (constant (F := Ideal) S_ .f32 0x3F800000#32))))

variable (m : (ℓ : Loc nD τ sig) → Buf (Elt Ideal) ℓ) (ρ : Dev nD → PrngReg)

/-- Any matrix S times the column of reciprocals 1 / max(a r, 1) broadcast along the rows reads, at (r, j),
    S r j / max(a r, 1): stated for an ARBITRARY matrix and an arbitrary vector a, so nothing of a sum over edges is
    ever opened. -/
theorem mulRecip_apply (S : FVec Ideal S100000x128 .f32) (a : FVec Ideal S100000 .f32) (r : Fin 100000) (j : Fin 128) :
    mulf S (broadcastInDim S100000x128 ![0, 1] bcast_S100000x1_S100000x128_0_1
      (broadcastInDim S100000x1 ![0] bcast_S100000_S100000x1_0
        (Host.divf (broadcastInDim S100000 ![] bcast_S_S100000 (constant (F := Ideal) S_ .f32 0x3F800000#32))
          (maximumf a (broadcastInDim S100000 ![] bcast_S_S100000 (constant (F := Ideal) S_ .f32 0x3F800000#32))))))
      (ix2 r j)
      = Ideal.div (S (ix2 r j)) (max (a (ix1 r)) 1) := by
  rw [mulf_apply, RowLayers.columnAcross_apply, RowLayers.columnBroadcast_apply, RowLayers.hostDivf_apply,
    maximumf_apply, RowLayers.scalarBroadcast_apply, Ideal.ofBits_one_f32]
  exact mul_recip_eq_div _ _

/-- The same as whole arrays: S times that column is, row by row, S divided by max(a, 1). -/
theorem mulRecip_eq (S : FVec Ideal S100000x128 .f32) (a : FVec Ideal S100000 .f32) :
    @Eq (FVec Ideal S100000x128 .f32)
      (mulf S (broadcastInDim S100000x128 ![0, 1] bcast_S100000x1_S100000x128_0_1
        (broadcastInDim S100000x1 ![0] bcast_S100000_S100000x1_0
          (Host.divf (broadcastInDim S100000 ![] bcast_S_S100000 (constant (F := Ideal) S_ .f32 0x3F800000#32))
            (maximumf a (broadcastInDim S100000 ![] bcast_S_S100000 (constant (F := Ideal) S_ .f32 0x3F800000#32)))))))
      (fun i => Ideal.div (S i) (max (a (ix1 ⟨(i 0).val, (i 0).isLt⟩)) 1)) := by
  funext i
  obtain ⟨r, j, rfl⟩ : ∃ (r : Fin 100000) (j : Fin 128), i = ix2 r j := ⟨i 0, i 1, eq_ix2 i⟩
  exact mulRecip_apply S a r j

/-- The neighbourhood sum times the broadcast column of reciprocals is the mean over in-neighbours. -/
theorem mean_eq (ei : (⟨S2x1600000, .i32⟩ : BufTy).Contents (Elt Ideal)) (H : SN.Idx → EReal) :
    @Eq (FVec Ideal S100000x128 .f32)
      (mulf (agg ei H) (broadcastInDim S100000x128 ![0, 1] bcast_S100000x1_S100000x128_0_1 (invCol ei)))
      (meanAgg (agg ei) (cnt ei) H) :=
  mulRecip_eq (agg ei H) (cnt ei)

/-! ## What the first region finds, and what the second stretch will read -/

set_option maxHeartbeats 8000000 in
theorem W1_v24 (c : Dev nD) :
    @Eq (FVec Ideal S100000x128 .f32) (W1 m ρ c (Proc.devRef .tc main_v24))
      (mulf (agg (m ((c : Thread nD τ).loc main_arg1)) (m ((c : Thread nD τ).loc main_arg0)))
          (broadcastInDim S100000x128 ![0, 1] bcast_S100000x1_S100000x128_0_1 (invCol (m ((c : Thread nD τ).loc main_arg1))))) := by
  show StableHlo.after hostOps0 (W0 m ρ c) (Proc.devRef .tc main_v24) = _
  dsimp only [hostOps0]
  after_results_simp
  rfl

set_option maxHeartbeats 8000000 in
theorem W1_arg0 (c : Dev nD) :
    @Eq (FVec Ideal S100000x128 .f32) (W1 m ρ c (Proc.devRef .tc main_arg0))
      (m ((c : Thread nD τ).loc main_arg0)) := by
  show StableHlo.after hostOps0 (W0 m ρ c) (Proc.devRef .tc main_arg0) = _
  dsimp only [hostOps0]
  after_results_simp

set_option maxHeartbeats 8000000 in
theorem W1_v25 (c : Dev nD) :
    @Eq (FVec Ideal S128x128 .f32) (W1 m ρ c (Proc.devRef .tc main_v25))
      (transpose S128x128 [1, 0] (m ((c : Thread nD τ).loc main_arg2)) transposes_S128x128_S128x128_1_0) := by
  show StableHlo.after hostOps0 (W0 m ρ c) (Proc.devRef .tc main_v25) = _
  dsimp only [hostOps0]
  after_results_simp

set_option maxHeartbeats 8000000 in
theorem W1_arg3 (c : Dev nD) :
    @Eq (FVec Ideal S128 .f32) (W1 m ρ c (Proc.devRef .tc main_arg3))
      (m ((c : Thread nD τ).loc main_arg3)) := by
  show StableHlo.after hostOps0 (W0 m ρ c) (Proc.devRef .tc main_arg3) = _
  dsimp only [hostOps0]
  after_results_simp

set_option maxHeartbeats 8000000 in
theorem W1_v26 (c : Dev nD) :
    @Eq (FVec Ideal S128x128 .f32) (W1 m ρ c (Proc.devRef .tc main_v26))
      (transpose S128x128 [1, 0] (m ((c : Thread nD τ).loc main_arg4)) transposes_S128x128_S128x128_1_0) := by
  show StableHlo.after hostOps0 (W0 m ρ c) (Proc.devRef .tc main_v26) = _
  dsimp only [hostOps0]
  after_results_simp

set_option maxHeartbeats 8000000 in
theorem W1_v1 (c : Dev nD) :
    @Eq ((⟨S1600000, .i32⟩ : BufTy).Contents (Elt Ideal)) (W1 m ρ c (Proc.devRef .tc main_v1))
      (src (m ((c : Thread nD τ).loc main_arg1))) := by
  show StableHlo.after hostOps0 (W0 m ρ c) (Proc.devRef .tc main_v1) = _
  dsimp only [hostOps0]
  after_results_simp
  rfl

set_option maxHeartbeats 8000000 in
theorem W1_v3 (c : Dev nD) :
    @Eq ((⟨S1600000, .i32⟩ : BufTy).Contents (Elt Ideal)) (W1 m ρ c (Proc.devRef .tc main_v3))
      (dst (m ((c : Thread nD τ).loc main_arg1))) := by
  show StableHlo.after hostOps0 (W0 m ρ c) (Proc.devRef .tc main_v3) = _
  dsimp only [hostOps0]
  after_results_simp
  rfl

set_option maxHeartbeats 8000000 in
theorem W1_v12 (c : Dev nD) :
    @Eq ((⟨S100000x1, .f32⟩ : BufTy).Contents (Elt Ideal)) (W1 m ρ c (Proc.devRef .tc main_v12))
      (invCol (m ((c : Thread nD τ).loc main_arg1))) := by
  show StableHlo.after hostOps0 (W0 m ρ c) (Proc.devRef .tc main_v12) = _
  dsimp only [hostOps0]
  after_results_simp
  rfl

set_option maxHeartbeats 8000000 in
theorem W1_arg5 (c : Dev nD) :
    @Eq (FVec Ideal S128x128 .f32) (W1 m ρ c (Proc.devRef .tc main_arg5))
      (m ((c : Thread nD τ).loc main_arg5)) := by
  show StableHlo.after hostOps0 (W0 m ρ c) (Proc.devRef .tc main_arg5) = _
  dsimp only [hostOps0]
  after_results_simp

set_option maxHeartbeats 8000000 in
theorem W1_arg6 (c : Dev nD) :
    @Eq (FVec Ideal S128 .f32) (W1 m ρ c (Proc.devRef .tc main_arg6))
      (m ((c : Thread nD τ).loc main_arg6)) := by
  show StableHlo.after hostOps0 (W0 m ρ c) (Proc.devRef .tc main_arg6) = _
  dsimp only [hostOps0]
  after_results_simp

set_option maxHeartbeats 8000000 in
theorem W1_arg7 (c : Dev nD) :
    @Eq (FVec Ideal S128x128 .f32) (W1 m ρ c (Proc.devRef .tc main_arg7))
      (m ((c : Thread nD τ).loc main_arg7)) := by
  show StableHlo.after hostOps0 (W0 m ρ c) (Proc.devRef .tc main_arg7) = _
  dsimp only [hostOps0]
  after_results_simp

end Cert.KernelIdeal.Host

end
-- ==== Proof.BodyAtEntry.lean ====
/-
  The arithmetic of the two kernel bodies at one entry of a block, on the extended reals.

  Both bodies take a block of 4000 aggregated rows a, the block of the same 4000 feature rows x, two 128 × 128 weight
  matrices wa, wb and a bias row b, and leave   post ((a · wa + x · wb) + b)   with post the rectifier in the first
  body and nothing in the second. Narrowing an operand to sixteen bits is the identity on extended reals and the matrix
  unit's product into a zero accumulator is the plain sum of products, so entry (p, q) is
      post ((Σₖ a p k · wa k q + Σₖ x p k · wb k q) + b q).
-/
import proofs.«121338_j34411277976464_1_alg».proof.Proof.Gen.KernelIdeal.Skeleton
import proofs.«121338_j34411277976464_1_alg».proof.Proof.Spec
import proofs.«121338_j34411277976464_1_alg».proof.Proof.LibRowLayers
import Idealize.ShloMosaic.Lib.Pipeline.Value

noncomputable section

open scoped BigOperators

namespace Cert.KernelIdeal.Body

open Cert.KernelIdeal Cert.KernelIdeal.Gen Cert.Sage Idealize.ShloMosaic Idealize.ShloMosaic.ValueIdx

/-! ## The product of a block of rows with a weight matrix -/

/-- The left operand is read in the output's row … -/
theorem lhs_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the contracted coordinate; -/
theorem lhs_col (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- the right operand at the contracted coordinate … -/
theorem rhs_row (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- … in the output's column. -/
theorem rhs_col (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times a 128 × 128 matrix, accumulated into zero, at (p, q): Σₖ a p k · w k q. -/
theorem rowsTimes_apply {φ₁ φ₂ : FTy} (a : FVec Ideal S4000x128 φ₁) (w : FVec Ideal S128x128 φ₂) (p : Fin 4000) (q : Fin 128) :
    matmul dot_S4000x128_S128x128_S4000x128_1_0_0_1_n_n none a w (constant S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-! ## The two bodies at an entry -/

/-- The first body: the rectified sum of the two products and the bias row. -/
theorem rectifiedBody_apply (a x : Vec Ideal S4000x128 .f32) (wa wb : Vec Ideal S128x128 .f32) (b : Vec Ideal S128 .f32)
    (p : Fin 4000) (q : Fin 128) :
    k0_pay1 (F := Ideal) a x wa wb b (ix2 p q)
      = relu ((∑ k : Fin 128, a (ix2 p k) * wa (ix2 k q) + ∑ k : Fin 128, x (ix2 p k) * wb (ix2 k q)) + b (ix1 q)) := by
  unfold k0_pay1 relu
  rw [maximumf_apply, addf_apply, addf_apply, rowsTimes_apply, rowsTimes_apply, RowLayers.biasRow_apply, broadcast_apply]
  simp only [truncf_apply, shapeCast_self]
  show max _ (Ideal.ofBits .f32 0x00000000#32) = max _ 0
  rw [Ideal.ofBits_zero_f32]

/-- The second body: the sum of the two products and the bias row. -/
theorem plainBody_apply (a x : Vec Ideal S4000x128 .f32) (wa wb : Vec Ideal S128x128 .f32) (b : Vec Ideal S128 .f32)
    (p : Fin 4000) (q : Fin 128) :
    k1_pay1 (F := Ideal) a x wa wb b (ix2 p q)
      = (∑ k : Fin 128, a (ix2 p k) * wa (ix2 k q) + ∑ k : Fin 128, x (ix2 p k) * wb (ix2 k q)) + b (ix1 q) := by
  unfold k1_pay1
  rw [addf_apply, addf_apply, rowsTimes_apply, rowsTimes_apply, RowLayers.biasRow_apply]
  simp only [truncf_apply, shapeCast_self]

end Cert.KernelIdeal.Body

end
-- ==== Proof.Region0.lean ====
/-
  The first kernel region, whole: from the contents V its arrays hold when it is entered, the array it writes ends
  holding the rectified combine step of the arrays it reads — its 25 blocks of 4000 rows each are the rows
  4000 t … 4000 t + 3999 of that one function, and they tile the 100000 rows.

  At point t the body sees rows 4000 t … 4000 t + 3999 of the aggregated rows and of the features, and the two weight
  matrices and the bias row whole; entry (p, q) of what it leaves is the rectified combine step at row 4000 t + p,
  column q, of the arrays; and row r of the array lies in the block of point r / 4000.
-/
import proofs.«121338_j34411277976464_1_alg».proof.Proof.Gen.KernelIdeal.Frame
import proofs.«121338_j34411277976464_1_alg».proof.Proof.Spec
import proofs.«121338_j34411277976464_1_alg».proof.Proof.BodyAtEntry
import Idealize.ShloMosaic.Lib.Pipeline.Value

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.Sage Idealize.ShloMosaic.ValueIdx

variable (V : (c : Dev nD) → (b : Ref sig .tc) → Buf (Elt Ideal) ((c : Thread nD τ).loc b))

/-- The body reads and writes its buffers from their first entry … -/
theorem originPair0 : (![0, 0] : Fin 2 → Nat) = fun _ => 0 := funext fun a => by fin_cases a <;> rfl
/-- … the bias row too. -/
theorem originRow0 : (![0] : Fin 1 → Nat) = fun _ => 0 := funext fun a => by fin_cases a; rfl

/-! ## Where the windows sit at a point -/

/-- At point t the three windows of 4000 rows sit at block row t, and the weights and the bias are whole. -/
theorem blockRow0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block of aggregated rows at point t is row 4000 t + p of the array. -/
theorem aggRows0 (c : Dev nD) (t : Fin cfg0.N) (p : Fin 4000) (k : Fin 128) (r : Fin 100000)
    (hr : r.val = 4000 * t.val + p.val) :
    (iblk0 V c 0 t : Vec Ideal S4000x128 .f32) (ix2 p k) = (V c main_v24 : SN.Idx → EReal) (ix2 r k) := by
  obtain ⟨e0, e1, -⟩ := blockRow0 t
  unfold iblk0
  rw [View.read_apply]
  show V c main_v24 _ = V c main_v24 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- Row p of the block of feature rows at point t is row 4000 t + p of the array. -/
theorem featRows0 (c : Dev nD) (t : Fin cfg0.N) (p : Fin 4000) (k : Fin 128) (r : Fin 100000)
    (hr : r.val = 4000 * t.val + p.val) :
    (iblk0 V c 1 t : Vec Ideal S4000x128 .f32) (ix2 p k) = (V c main_arg0 : SN.Idx → EReal) (ix2 r k) := by
  obtain ⟨-, -, e0, e1, -⟩ := blockRow0 t
  unfold iblk0
  rw [View.read_apply]
  show V c main_arg0 _ = V c main_arg0 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

/-- The first weight matrix is seen whole at every point. -/
theorem weightA0 (c : Dev nD) (t : Fin cfg0.N) :
    (iblk0 V c 2 t : Vec Ideal S128x128 .f32) = (V c main_v25 : SD.Idx → EReal) := by
  obtain ⟨-, -, -, -, e0, e1, -⟩ := blockRow0 t
  unfold iblk0
  funext y
  rw [View.read_apply]
  show V c main_v25 _ = V c main_v25 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row is seen whole at every point. -/
theorem biasRow0 (c : Dev nD) (t : Fin cfg0.N) :
    (iblk0 V c 3 t : Vec Ideal S128 .f32) = (V c main_arg3 : SB.Idx → EReal) := by
  obtain ⟨-, -, -, -, -, -, e0, -⟩ := blockRow0 t
  unfold iblk0
  funext y
  rw [View.read_apply]
  show V c main_arg3 _ = V c main_arg3 y
  congr 1
  funext a
  apply Fin.ext
  match a with
  | ⟨0, _⟩ => show win0_3.index t (0 : Fin 1) * 128 + 1 * (y 0).val = (y 0).val; rw [e0]; omega

/-- The second weight matrix is seen whole at every point. -/
theorem weightB0 (c : Dev nD) (t : Fin cfg0.N) :
    (iblk0 V c 4 t : Vec Ideal S128x128 .f32) = (V c main_v26 : SD.Idx → EReal) := by
  obtain ⟨-, -, -, -, -, -, -, e0, e1, -⟩ := blockRow0 t
  unfold iblk0
  funext y
  rw [View.read_apply]
  show V c main_v26 _ = V c main_v26 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## What a point leaves -/

/-- Entry (p, q) of the first body's result on blocks that are rows of arrays A, X (row p of the block being row r of
    the array) and on the weights and bias themselves is the rectified combine step of the arrays at (r, q). -/
theorem rectifiedBody_rows (a x : Vec Ideal S4000x128 .f32) (wa wb : Vec Ideal S128x128 .f32) (b : Vec Ideal S128 .f32)
    (A X : SN.Idx → EReal) (Wa Wb : SD.Idx → EReal) (B : SB.Idx → EReal) (p : Fin 4000) (q : Fin 128) (r : Fin 100000)
    (ha : ∀ k : Fin 128, a (ix2 p k) = A (ix2 r k)) (hx : ∀ k : Fin 128, x (ix2 p k) = X (ix2 r k))
    (hwa : wa = Wa) (hwb : wb = Wb) (hb : b = B) :
    k0_pay1 (F := Ideal) a x wa wb b (ix2 p q) = combine relu A X Wa B Wb (ix2 r q) := by
  rw [Body.rectifiedBody_apply, combine_ix2]
  unfold combineAt
  simp only [ha, hx, hwa, hwb, hb]

/-- What point t writes back is block t of the rectified combine step of the arrays the region finds. -/
theorem flushed0 (c : Dev nD) (t : Fin cfg0.N) :
    (dat0 (F := Ideal) V c).flushed 5 t
      = ((cfg0.win 5).blk t).view.read (Elt Ideal)
          (combine relu (V c main_v24) (V c main_arg0) (V c main_v25) (V c main_arg3) (V c main_v26)) := by
  show (cfg0.win 5).cut (grid0.coords t) ((dat0 V c).after 5 t) = _
  rw [after0_5]
  unfold out0_5
  rw [View.canon_unit_zero originPair0]
  simp only [View.ld_unit_zero (S := S4000x128) originPair0, View.ld_unit_zero (S := S128x128) originPair0,
    View.ld_unit_zero (S := S128) originRow0]
  obtain ⟨-, -, -, -, -, -, -, -, -, e0, e1⟩ := blockRow0 t
  have hN : cfg0.N = 25 := N_0
  funext j
  obtain ⟨p, q, rfl⟩ : ∃ (p : Fin 4000) (q : Fin 128), j = ix2 p q := ⟨j 0, j 1, eq_ix2 j⟩
  have hr : 4000 * t.val + p.val < 100000 := by have := t.isLt; have := p.isLt; omega
  rw [View.read_apply]
  have hemb : ((cfg0.win 5).blk t).view.emb (ix2 p q) = ix2 (⟨4000 * t.val + p.val, hr⟩ : Fin 100000) q := by
    funext a
    apply Fin.ext
    match a with
    | ⟨0, _⟩ => show win0_5.index t (0 : Fin 2) * 4000 + 1 * p.val = 4000 * t.val + p.val; rw [e0]; omega
    | ⟨1, _⟩ => show win0_5.index t (1 : Fin 2) * 128 + 1 * q.val = q.val; rw [e1]; omega
  rw [hemb]
  exact rectifiedBody_rows (iblk0 V c 0 t) (iblk0 V c 1 t) (iblk0 V c 2 t) (iblk0 V c 4 t) (iblk0 V c 3 t)
    (V c main_v24) (V c main_arg0) (V c main_v25) (V c main_v26) (V c main_arg3) p q ⟨4000 * t.val + p.val, hr⟩
    (fun k => aggRows0 V c t p k _ rfl) (fun k => featRows0 V c t p k _ rfl)
    (weightA0 V c t) (weightB0 V c t) (biasRow0 V c t)

/-! ## The blocks tile the rows -/

/-- An entry of the array is in point t's block iff each coordinate is in the block's range on its axis. -/
theorem mem_block0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v27).slice (win0_5.rect t)).set ↔ _
  rw [View.set_slice_whole, Rect.mem_set_unit]
  exact Iff.rfl

/-- Row r lies in the block of point r / 4000. -/
theorem covered0 (i : S100000x128.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 128 := (i 1).isLt
  let t : Fin cfg0.N := ⟨(i 0).val / 4000, by omega⟩
  obtain ⟨-, -, -, -, -, -, -, -, -, e0, e1⟩ := blockRow0 t
  have ht : t.val = (i 0).val / 4000 := rfl
  refine ⟨t, flush0_5 t, ?_⟩
  rw [mem_block0]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-- After region 0 the array of its output window holds the rectified combine step of the arrays of its input windows. -/
theorem region0_value (c : Dev nD) :
    (dat0 (F := Ideal) V c).arrAt 5 cfg0.N
      = combine relu (V c main_v24) (V c main_arg0) (V c main_v25) (V c main_arg3) (V c main_v26) :=
  (dat0 (F := Ideal) V c).arrAt_eq_of_cover 5 _ (fun t _ => flushed0 V c t) covered0

end Cert.KernelIdeal.Regions

end
-- ==== Proof.Region1.lean ====
/-
  The second kernel region, whole: from the contents V its arrays hold when it is entered, the array it writes ends
  holding the plain combine step of the arrays it reads — its 25 blocks of 4000 rows each are the rows
  4000 t … 4000 t + 3999 of that one function, and they tile the 100000 rows.

  At point t the body sees rows 4000 t … 4000 t + 3999 of the aggregated rows and of the features, and the two weight
  matrices and the bias row whole; entry (p, q) of what it leaves is the combine step (no rectifier) at row 4000 t + p,
  column q, of the arrays; and row r of the array lies in the block of point r / 4000.
-/
import proofs.«121338_j34411277976464_1_alg».proof.Proof.Gen.KernelIdeal.Frame
import proofs.«121338_j34411277976464_1_alg».proof.Proof.Spec
import proofs.«121338_j34411277976464_1_alg».proof.Proof.BodyAtEntry
import Idealize.ShloMosaic.Lib.Pipeline.Value

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.Sage Idealize.ShloMosaic.ValueIdx

variable (V : (c : Dev nD) → (b : Ref sig .tc) → Buf (Elt Ideal) ((c : Thread nD τ).loc b))

/-- The body reads and writes its buffers from their first entry … -/
theorem originPair1 : (![0, 0] : Fin 2 → Nat) = fun _ => 0 := funext fun a => by fin_cases a <;> rfl
/-- … the bias row too. -/
theorem originRow1 : (![0] : Fin 1 → Nat) = fun _ => 0 := funext fun a => by fin_cases a; rfl

/-! ## Where the windows sit at a point -/

/-- At point t the three windows of 4000 rows sit at block row t, and the weights and the bias are whole. -/
theorem blockRow1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block of aggregated rows at point t is row 4000 t + p of the array. -/
theorem aggRows1 (c : Dev nD) (t : Fin cfg1.N) (p : Fin 4000) (k : Fin 128) (r : Fin 100000)
    (hr : r.val = 4000 * t.val + p.val) :
    (iblk1 V c 0 t : Vec Ideal S4000x128 .f32) (ix2 p k) = (V c main_v39 : SN.Idx → EReal) (ix2 r k) := by
  obtain ⟨e0, e1, -⟩ := blockRow1 t
  unfold iblk1
  rw [View.read_apply]
  show V c main_v39 _ = V c main_v39 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- Row p of the block of feature rows at point t is row 4000 t + p of the array. -/
theorem featRows1 (c : Dev nD) (t : Fin cfg1.N) (p : Fin 4000) (k : Fin 128) (r : Fin 100000)
    (hr : r.val = 4000 * t.val + p.val) :
    (iblk1 V c 1 t : Vec Ideal S4000x128 .f32) (ix2 p k) = (V c main_v27 : SN.Idx → EReal) (ix2 r k) := by
  obtain ⟨-, -, e0, e1, -⟩ := blockRow1 t
  unfold iblk1
  rw [View.read_apply]
  show V c main_v27 _ = V c main_v27 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- The first weight matrix is seen whole at every point. -/
theorem weightA1 (c : Dev nD) (t : Fin cfg1.N) :
    (iblk1 V c 2 t : Vec Ideal S128x128 .f32) = (V c main_v40 : SD.Idx → EReal) := by
  obtain ⟨-, -, -, -, e0, e1, -⟩ := blockRow1 t
  unfold iblk1
  funext y
  rw [View.read_apply]
  show V c main_v40 _ = V c main_v40 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row is seen whole at every point. -/
theorem biasRow1 (c : Dev nD) (t : Fin cfg1.N) :
    (iblk1 V c 3 t : Vec Ideal S128 .f32) = (V c main_arg6 : SB.Idx → EReal) := by
  obtain ⟨-, -, -, -, -, -, e0, -⟩ := blockRow1 t
  unfold iblk1
  funext y
  rw [View.read_apply]
  show V c main_arg6 _ = V c main_arg6 y
  congr 1
  funext a
  apply Fin.ext
  match a with
  | ⟨0, _⟩ => show win1_3.index t (0 : Fin 1) * 128 + 1 * (y 0).val = (y 0).val; rw [e0]; omega

/-- The second weight matrix is seen whole at every point. -/
theorem weightB1 (c : Dev nD) (t : Fin cfg1.N) :
    (iblk1 V c 4 t : Vec Ideal S128x128 .f32) = (V c main_v41 : SD.Idx → EReal) := by
  obtain ⟨-, -, -, -, -, -, -, e0, e1, -⟩ := blockRow1 t
  unfold iblk1
  funext y
  rw [View.read_apply]
  show V c main_v41 _ = V c main_v41 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-! ## What a point leaves -/

/-- Entry (p, q) of the second body's result on blocks that are rows of arrays A, X (row p of the block being row r of
    the array) and on the weights and bias themselves is the combine step of the arrays at (r, q), nothing applied after. -/
theorem plainBody_rows (a x : Vec Ideal S4000x128 .f32) (wa wb : Vec Ideal S128x128 .f32) (b : Vec Ideal S128 .f32)
    (A X : SN.Idx → EReal) (Wa Wb : SD.Idx → EReal) (B : SB.Idx → EReal) (p : Fin 4000) (q : Fin 128) (r : Fin 100000)
    (ha : ∀ k : Fin 128, a (ix2 p k) = A (ix2 r k)) (hx : ∀ k : Fin 128, x (ix2 p k) = X (ix2 r k))
    (hwa : wa = Wa) (hwb : wb = Wb) (hb : b = B) :
    k1_pay1 (F := Ideal) a x wa wb b (ix2 p q) = combine id A X Wa B Wb (ix2 r q) := by
  rw [Body.plainBody_apply, combine_ix2]
  unfold combineAt
  simp only [ha, hx, hwa, hwb, hb, id_eq]

/-- What point t writes back is block t of the combine step of the arrays the region finds. -/
theorem flushed1 (c : Dev nD) (t : Fin cfg1.N) :
    (dat1 (F := Ideal) V c).flushed 5 t
      = ((cfg1.win 5).blk t).view.read (Elt Ideal)
          (combine id (V c main_v39) (V c main_v27) (V c main_v40) (V c main_arg6) (V c main_v41)) := by
  show (cfg1.win 5).cut (grid1.coords t) ((dat1 V c).after 5 t) = _
  rw [after1_5]
  unfold out1_5
  rw [View.canon_unit_zero originPair1]
  simp only [View.ld_unit_zero (S := S4000x128) originPair1, View.ld_unit_zero (S := S128x128) originPair1,
    View.ld_unit_zero (S := S128) originRow1]
  obtain ⟨-, -, -, -, -, -, -, -, -, e0, e1⟩ := blockRow1 t
  have hN : cfg1.N = 25 := N_1
  funext j
  obtain ⟨p, q, rfl⟩ : ∃ (p : Fin 4000) (q : Fin 128), j = ix2 p q := ⟨j 0, j 1, eq_ix2 j⟩
  have hr : 4000 * t.val + p.val < 100000 := by have := t.isLt; have := p.isLt; omega
  rw [View.read_apply]
  have hemb : ((cfg1.win 5).blk t).view.emb (ix2 p q) = ix2 (⟨4000 * t.val + p.val, hr⟩ : Fin 100000) q := by
    funext a
    apply Fin.ext
    match a with
    | ⟨0, _⟩ => show win1_5.index t (0 : Fin 2) * 4000 + 1 * p.val = 4000 * t.val + p.val; rw [e0]; omega
    | ⟨1, _⟩ => show win1_5.index t (1 : Fin 2) * 128 + 1 * q.val = q.val; rw [e1]; omega
  rw [hemb]
  exact plainBody_rows (iblk1 V c 0 t) (iblk1 V c 1 t) (iblk1 V c 2 t) (iblk1 V c 4 t) (iblk1 V c 3 t)
    (V c main_v39) (V c main_v27) (V c main_v40) (V c main_v41) (V c main_arg6) p q ⟨4000 * t.val + p.val, hr⟩
    (fun k => aggRows1 V c t p k _ rfl) (fun k => featRows1 V c t p k _ rfl)
    (weightA1 V c t) (weightB1 V c t) (biasRow1 V c t)

/-! ## The blocks tile the rows -/

/-- An entry of the array is in point t's block iff each coordinate is in the block's range on its axis. -/
theorem mem_block1 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v42).slice (win1_5.rect t)).set ↔ _
  rw [View.set_slice_whole, Rect.mem_set_unit]
  exact Iff.rfl

/-- Row r lies in the block of point r / 4000. -/
theorem covered1 (i : S100000x128.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 128 := (i 1).isLt
  let t : Fin cfg1.N := ⟨(i 0).val / 4000, by omega⟩
  obtain ⟨-, -, -, -, -, -, -, -, -, e0, e1⟩ := blockRow1 t
  have ht : t.val = (i 0).val / 4000 := rfl
  refine ⟨t, flush1_5 t, ?_⟩
  rw [mem_block1]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 128 ≤ (i 1).val ∧ (i 1).val < win1_5.index t (1 : Fin 2) * 128 + 128; rw [e1]; omega

/-- After region 1 the array of its output window holds the combine step (no rectifier) of the arrays of its input windows. -/
theorem region1_value (c : Dev nD) :
    (dat1 (F := Ideal) V c).arrAt 5 cfg1.N
      = combine id (V c main_v39) (V c main_v27) (V c main_v40) (V c main_arg6) (V c main_v41) :=
  (dat1 (F := Ideal) V c).arrAt_eq_of_cover 5 _ (fun t _ => flushed1 V c t) covered1

end Cert.KernelIdeal.Regions

end
-- ==== Proof.KHost1.lean ====
/-
  The kernel program's second host stretch, read over what the first kernel region leaves, and the program's result:
  the two-layer function of Spec.lean of the launch contents.

  Between the regions the program forms the neighbourhood sum of the first region's result times the same column of
  reciprocals 1 / max(in-degree, 1): the mean over in-neighbours again. Each region's output array is the combine step
  of the arrays it reads (Region0.lean, Region1.lean), so the second region's output is the second layer of the first's.
-/
import proofs.«121338_j34411277976464_1_alg».proof.Proof.KHost0
import proofs.«121338_j34411277976464_1_alg».proof.Proof.Region0
import proofs.«121338_j34411277976464_1_alg».proof.Proof.Region1
import proofs.«121338_j34411277976464_1_alg».proof.Proof.KRun

set_option maxRecDepth 16384

noncomputable section

open scoped BigOperators

namespace Cert.KernelIdeal.Host

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first region: its output array is the first layer; every other array is as the region found it -/

/-- The first region leaves the rectified first layer of the node features in its output array. -/
theorem W2_v27 (c : Dev nD) :
    @Eq (FVec Ideal S100000x128 .f32) (W2 m ρ c (Proc.devRef .tc main_v27))
      (combine relu (meanAgg (agg (m ((c : Thread nD τ).loc main_arg1))) (cnt (m ((c : Thread nD τ).loc main_arg1))) (m ((c : Thread nD τ).loc main_arg0))) (m ((c : Thread nD τ).loc main_arg0)) (transpose S128x128 [1, 0] (m ((c : Thread nD τ).loc main_arg2)) transposes_S128x128_S128x128_1_0) (m ((c : Thread nD τ).loc main_arg3)) (transpose S128x128 [1, 0] (m ((c : Thread nD τ).loc main_arg4)) transposes_S128x128_S128x128_1_0)) := by
  refine ((W2_arr m ρ c 5).trans (Regions.region0_value (V1 m ρ) c)).trans ?_
  show combine relu (W1 m ρ c (Proc.devRef .tc main_v24)) (W1 m ρ c (Proc.devRef .tc main_arg0)) (W1 m ρ c (Proc.devRef .tc main_v25))
    (W1 m ρ c (Proc.devRef .tc main_arg3)) (W1 m ρ c (Proc.devRef .tc main_v26)) = _
  rw [W1_v24, W1_arg0, W1_v25, W1_arg3, W1_v26, mean_eq]

theorem W2_v1 (c : Dev nD) : @Eq ((⟨S1600000, .i32⟩ : BufTy).Contents (Elt Ideal)) (W2 m ρ c (Proc.devRef .tc main_v1)) (src (m ((c : Thread nD τ).loc main_arg1))) :=
  (W2_of_ne m ρ c main_v1 (by decide)).trans (W1_v1 m ρ c)
theorem W2_v3 (c : Dev nD) : @Eq ((⟨S1600000, .i32⟩ : BufTy).Contents (Elt Ideal)) (W2 m ρ c (Proc.devRef .tc main_v3)) (dst (m ((c : Thread nD τ).loc main_arg1))) :=
  (W2_of_ne m ρ c main_v3 (by decide)).trans (W1_v3 m ρ c)
theorem W2_v12 (c : Dev nD) : @Eq ((⟨S100000x1, .f32⟩ : BufTy).Contents (Elt Ideal)) (W2 m ρ c (Proc.devRef .tc main_v12)) (invCol (m ((c : Thread nD τ).loc main_arg1))) :=
  (W2_of_ne m ρ c main_v12 (by decide)).trans (W1_v12 m ρ c)
theorem W2_arg5 (c : Dev nD) : @Eq (FVec Ideal S128x128 .f32) (W2 m ρ c (Proc.devRef .tc main_arg5)) (m ((c : Thread nD τ).loc main_arg5)) :=
  (W2_of_ne m ρ c main_arg5 (by decide)).trans (W1_arg5 m ρ c)
theorem W2_arg6 (c : Dev nD) : @Eq (FVec Ideal S128 .f32) (W2 m ρ c (Proc.devRef .tc main_arg6)) (m ((c : Thread nD τ).loc main_arg6)) :=
  (W2_of_ne m ρ c main_arg6 (by decide)).trans (W1_arg6 m ρ c)
theorem W2_arg7 (c : Dev nD) : @Eq (FVec Ideal S128x128 .f32) (W2 m ρ c (Proc.devRef .tc main_arg7)) (m ((c : Thread nD τ).loc main_arg7)) :=
  (W2_of_ne m ρ c main_arg7 (by decide)).trans (W1_arg7 m ρ c)

/-! ## What the second region finds -/

set_option maxHeartbeats 8000000 in
theorem W3_v39 (c : Dev nD) :
    @Eq (FVec Ideal S100000x128 .f32) (W3 m ρ c (Proc.devRef .tc main_v39))
      (mulf
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W2 m ρ c (Proc.devRef .tc main_v3)))
          (Host.gather gather_S100000x128_S1600000x1_S1600000x128_1_0_n_n_0_1_1128 (W2 m ρ c (Proc.devRef .tc main_v27))
            (broadcastInDim S1600000x1 ![0] bcast_S1600000_S1600000x1_0
              (select (cmpi .slt (W2 m ρ c (Proc.devRef .tc main_v1)) (broadcastInDim S1600000 ![] bcast_S_S1600000 (constantI S_ 32 0#32)))
                (addi (W2 m ρ c (Proc.devRef .tc main_v1)) (broadcastInDim S1600000 ![] bcast_S_S1600000 (constantI S_ 32 100000#32)))
                (W2 m ρ c (Proc.devRef .tc main_v1))))))
        (broadcastInDim S100000x128 ![0, 1] bcast_S100000x1_S100000x128_0_1 (W2 m ρ c (Proc.devRef .tc main_v12)))) := by
  show StableHlo.after hostOps1 (W2 m ρ c) (Proc.devRef .tc main_v39) = _
  dsimp only [hostOps1]
  after_results_simp

set_option maxHeartbeats 8000000 in
theorem W3_v27 (c : Dev nD) :
    @Eq (FVec Ideal S100000x128 .f32) (W3 m ρ c (Proc.devRef .tc main_v27))
      ((W2 m ρ c (Proc.devRef .tc main_v27))) := by
  show StableHlo.after hostOps1 (W2 m ρ c) (Proc.devRef .tc main_v27) = _
  dsimp only [hostOps1]
  after_results_simp

set_option maxHeartbeats 8000000 in
theorem W3_v40 (c : Dev nD) :
    @Eq (FVec Ideal S128x128 .f32) (W3 m ρ c (Proc.devRef .tc main_v40))
      (transpose S128x128 [1, 0] (W2 m ρ c (Proc.devRef .tc main_arg5)) transposes_S128x128_S128x128_1_0) := by
  show StableHlo.after hostOps1 (W2 m ρ c) (Proc.devRef .tc main_v40) = _
  dsimp only [hostOps1]
  after_results_simp

set_option maxHeartbeats 8000000 in
theorem W3_arg6 (c : Dev nD) :
    @Eq (FVec Ideal S128 .f32) (W3 m ρ c (Proc.devRef .tc main_arg6))
      ((W2 m ρ c (Proc.devRef .tc main_arg6))) := by
  show StableHlo.after hostOps1 (W2 m ρ c) (Proc.devRef .tc main_arg6) = _
  dsimp only [hostOps1]
  after_results_simp

set_option maxHeartbeats 8000000 in
theorem W3_v41 (c : Dev nD) :
    @Eq (FVec Ideal S128x128 .f32) (W3 m ρ c (Proc.devRef .tc main_v41))
      (transpose S128x128 [1, 0] (W2 m ρ c (Proc.devRef .tc main_arg7)) transposes_S128x128_S128x128_1_0) := by
  show StableHlo.after hostOps1 (W2 m ρ c) (Proc.devRef .tc main_v41) = _
  dsimp only [hostOps1]
  after_results_simp

/-- The neighbourhood sum, spelled out: gather by the wrapped sources, scatter-add by the destinations. -/
theorem agg_spelled (ei : (⟨S2x1600000, .i32⟩ : BufTy).Contents (Elt Ideal)) (H : FVec Ideal S100000x128 .f32) :
    @Eq (FVec Ideal S100000x128 .f32)
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (dst ei))
        (Host.gather gather_S100000x128_S1600000x1_S1600000x128_1_0_n_n_0_1_1128 H
          (broadcastInDim S1600000x1 ![0] bcast_S1600000_S1600000x1_0
            (select (cmpi .slt (src ei) (broadcastInDim S1600000 ![] bcast_S_S1600000 (constantI S_ 32 0#32)))
              (addi (src ei) (broadcastInDim S1600000 ![] bcast_S_S1600000 (constantI S_ 32 100000#32)))
              (src ei)))))
      (agg ei H) := rfl

/-! ## The result -/

/-- After the second region the result array holds the two-layer function of the launch contents. -/
theorem W4_v42 (c : Dev nD) :
    @Eq (FVec Ideal S100000x128 .f32) (W4 m ρ c (Proc.devRef .tc main_v42))
      (net (agg (m ((c : Thread nD τ).loc main_arg1))) (cnt (m ((c : Thread nD τ).loc main_arg1))) (m ((c : Thread nD τ).loc main_arg0)) (transpose S128x128 [1, 0] (m ((c : Thread nD τ).loc main_arg2)) transposes_S128x128_S128x128_1_0) (m ((c : Thread nD τ).loc main_arg3)) (transpose S128x128 [1, 0] (m ((c : Thread nD τ).loc main_arg4)) transposes_S128x128_S128x128_1_0)
        (transpose S128x128 [1, 0] (m ((c : Thread nD τ).loc main_arg5)) transposes_S128x128_S128x128_1_0) (m ((c : Thread nD τ).loc main_arg6)) (transpose S128x128 [1, 0] (m ((c : Thread nD τ).loc main_arg7)) transposes_S128x128_S128x128_1_0)) := by
  refine ((W4_arr m ρ c 5).trans (Regions.region1_value (V3 m ρ) c)).trans ?_
  show combine id (W3 m ρ c (Proc.devRef .tc main_v39)) (W3 m ρ c (Proc.devRef .tc main_v27)) (W3 m ρ c (Proc.devRef .tc main_v40))
    (W3 m ρ c (Proc.devRef .tc main_arg6)) (W3 m ρ c (Proc.devRef .tc main_v41)) = _
  rw [W3_v39, W3_v27, W3_v40, W3_arg6, W3_v41, W2_v1, W2_v3, W2_v12, W2_arg5, W2_arg6, W2_arg7, W2_v27]
  rw [agg_spelled, mean_eq]
  rfl

/-- The program's result as a function of the launch memory, on core c. -/
def result (c : Dev nD) : FVec Ideal S100000x128 .f32 :=
  (net (agg (m ((c : Thread nD τ).loc main_arg1))) (cnt (m ((c : Thread nD τ).loc main_arg1))) (m ((c : Thread nD τ).loc main_arg0)) (transpose S128x128 [1, 0] (m ((c : Thread nD τ).loc main_arg2)) transposes_S128x128_S128x128_1_0) (m ((c : Thread nD τ).loc main_arg3)) (transpose S128x128 [1, 0] (m ((c : Thread nD τ).loc main_arg4)) transposes_S128x128_S128x128_1_0)
        (transpose S128x128 [1, 0] (m ((c : Thread nD τ).loc main_arg5)) transposes_S128x128_S128x128_1_0) (m ((c : Thread nD τ).loc main_arg6)) (transpose S128x128 [1, 0] (m ((c : Thread nD τ).loc main_arg7)) transposes_S128x128_S128x128_1_0))

theorem W4_v42_result (c : Dev nD) : @Eq (FVec Ideal S100000x128 .f32) (W4 m ρ c (Proc.devRef .tc main_v42)) (result m c) := W4_v42 m ρ c

/-- Every weakly fair execution of the program ends with the result array at the two-layer function of the launch
    contents and the argument arrays as launched. -/
theorem run : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v42_result m ρ c), (h c).2⟩)
    (Cert.KernelIdeal.Named.run_named (F := Ideal) m ρ)

end Cert.KernelIdeal.Host

end
-- ==== Proof.RefValue.lean ====
/-
  The reference network's result, at the exact instance, is the two-layer function of Spec.lean: stage by stage, its
  neighbourhood sums and in-degree are the abstract ones, each layer's mean is the quotient by max(in-degree, 1), and
  each layer adds the bias before the second product where the specification adds it after.
-/
import proofs.«121338_j34411277976464_1_alg».proof.Defs
import proofs.«121338_j34411277976464_1_alg».proof.Proof.Gen.ReferenceIdeal.Run
import proofs.«121338_j34411277976464_1_alg».proof.Proof.Gen.ReferenceIdeal.Read
import proofs.«121338_j34411277976464_1_alg».proof.Proof.Spec
import proofs.«121338_j34411277976464_1_alg».proof.Proof.LibRowLayers

noncomputable section

open scoped BigOperators

namespace Cert.ReferenceIdeal.Stages

open Cert.ReferenceIdeal Cert.ReferenceIdeal.Gen Cert.ReferenceIdeal.Read Cert.Sage
open Idealize.ShloMosaic Idealize.ShloMosaic.ValueIdx
/-- The source node of every edge (row 0 of the edge list). -/
def src (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The destination node of every edge (row 1 of the edge list). -/
def dst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The source nodes with a negative number counted from the end (100000 added). -/
def srcWrapped (ei : (⟨S2x1600000, .i32⟩ : BufTy).Contents (Elt Ideal)) : (⟨S1600000, .i32⟩ : BufTy).Contents (Elt Ideal) :=
  select (cmpi .slt (src ei) (broadcastInDim S1600000 ![] bcast_S_S1600000 (constantI S_ 32 0#32)))
    (addi (src ei) (broadcastInDim S1600000 ![] bcast_S_S1600000 (constantI S_ 32 100000#32))) (src ei)

/-- The neighbourhood sum: the rows of H gathered by the edges' sources and added into the rows of a zero matrix by
    the edges' destinations. -/
def agg (ei : (⟨S2x1600000, .i32⟩ : BufTy).Contents (Elt Ideal)) (H : SN.Idx → EReal) : SN.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst ei))
    (Host.gather gather_S100000x128_S1600000x1_S1600000x128_1_0_n_n_0_1_1128 H
      (broadcastInDim S1600000x1 ![0] bcast_S1600000_S1600000x1_0 (srcWrapped ei)))

/-- The in-degree: a one for every edge added into a zero vector by the edges' destinations. -/
def cnt (ei : (⟨S2x1600000, .i32⟩ : BufTy).Contents (Elt Ideal)) : SC.Idx → EReal :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dst ei))
    (broadcastInDim S1600000 ![] bcast_S_S1600000 (constant (F := Ideal) S_ .f32 0x3F800000#32))

/-! ## The neighbourhood sums and the in-degree are the stage definitions' -/

/-- The first layer's scatter-add of gathered rows is the neighbourhood sum of the input features. -/
theorem v13_eq (x0 : (⟨S100000x128, .f32⟩ : BufTy).Contents (Elt Ideal)) (x1 : (⟨S2x1600000, .i32⟩ : BufTy).Contents (Elt Ideal)) :
    val_main_v13 (F := Ideal) x0 x1 = agg x1 x0 := rfl

/-- The first layer's scatter-add of ones is the in-degree. -/
theorem v17_eq (x1 : (⟨S2x1600000, .i32⟩ : BufTy).Contents (Elt Ideal)) : val_main_v17 (F := Ideal) x1 = cnt x1 := rfl

/-- The second layer's in-degree is the same scatter-add of ones. -/
theorem v45_eq (x1 : (⟨S2x1600000, .i32⟩ : BufTy).Contents (Elt Ideal)) : val_main_v45 (F := Ideal) x1 = cnt x1 := rfl

/-! ## One layer in the reference's spelling, over arbitrary operands -/

/-- One layer as the reference spells it, over an arbitrary neighbourhood sum A, in-degree c and node features H:
    A divided by max(c, 1) (a column broadcast along each row), times Wa, plus the bias row, plus H times Wb. -/
def layerOps (A : FVec Ideal S100000x128 .f32) (c : FVec Ideal S100000 .f32)
    (H : FVec Ideal S100000x128 .f32) (Wa : FVec Ideal S128x128 .f32)
    (b : FVec Ideal S128 .f32) (Wb : FVec Ideal S128x128 .f32) : FVec Ideal S100000x128 .f32 :=
  addf
    (addf
      (Host.dotGeneral dot_S100000x128_S128x128_S100000x128_1_0_0_1_n_n none
        (Host.divf A
          (broadcastInDim S100000x128 ![0, 1] bcast_S100000x1_S100000x128_0_1
            (broadcastInDim S100000x1 ![0] bcast_S100000_S100000x1_0
              (maximumf c (broadcastInDim S100000 ![] bcast_S_S100000 (constant (F := Ideal) S_ .f32 0x3F800000#32))))))
        Wa)
      (broadcastInDim S100000x128 ![0, 1] bcast_S1x128_S100000x128_0_1 (broadcastInDim S1x128 ![1] bcast_S128_S1x128_1 b)))
    (Host.dotGeneral dot_S100000x128_S128x128_S100000x128_1_0_0_1_n_n none H Wb)

/-- The layer's two contractions are the plain product of a 100000 × 128 by a 128 × 128 matrix. -/
theorem dot_eq_plain : dot_S100000x128_S128x128_S100000x128_1_0_0_1_n_n = DotDims.plain 100000 128 128 := rfl

/-- The layer at (r, j): (Σₖ (A r k / max(c r, 1)) · Wa k j + b j) + Σₖ H r k · Wb k j. -/
theorem layerOps_apply (A : FVec Ideal S100000x128 .f32) (c : FVec Ideal S100000 .f32)
    (H : FVec Ideal S100000x128 .f32) (Wa : FVec Ideal S128x128 .f32)
    (b : FVec Ideal S128 .f32) (Wb : FVec Ideal S128x128 .f32)
    (r : Fin 100000) (j : Fin 128) :
    layerOps A c H Wa b Wb (ix2 r j)
      = ((∑ k : Fin 128, Ideal.div (A (ix2 r k)) (max (c (ix1 r)) 1) * Wa (ix2 k j)) + b (ix1 j))
          + ∑ k : Fin 128, H (ix2 r k) * Wb (ix2 k j) := by
  unfold layerOps
  rw [addf_apply, addf_apply, dot_eq_plain, StackMember.dotGeneral_plain_apply, StackMember.dotGeneral_plain_apply,
    RowLayers.rowDown_apply, RowLayers.rowBroadcast_apply]
  refine congrArg (fun s => s + b (ix1 j) + ∑ k : Fin 128, H (ix2 r k) * Wb (ix2 k j)) (Finset.sum_congr rfl fun k _ => ?_)
  rw [RowLayers.hostDivf_apply, RowLayers.columnAcross_apply, RowLayers.columnBroadcast_apply, maximumf_apply,
    RowLayers.scalarBroadcast_apply, Ideal.ofBits_one_f32]

/-- Adding the bias before the second product, as the reference does, gives the specification's entry with the mean
    over in-neighbours as its first operand. -/
theorem layerOps_combineAt (post : EReal → EReal) (aggF : (SN.Idx → EReal) → SN.Idx → EReal) (c : SC.Idx → EReal)
    (H : SN.Idx → EReal) (Wa : SD.Idx → EReal) (b : SB.Idx → EReal) (Wb : SD.Idx → EReal) (r : Fin 100000) (j : Fin 128) :
    post (layerOps (aggF H) c H Wa b Wb (ix2 r j)) = combineAt post (meanAgg aggF c H) H Wa b Wb r j := by
  unfold combineAt
  refine congrArg post ?_
  simp only [meanAgg_ix2]
  rw [layerOps_apply]
  exact (add_bias_comm _ _ _).symm

/-! ## The first layer -/

/-- The first layer before its rectification is the layer over the first neighbourhood sum, the in-degree, the input
    features and the transposed first-layer weights. -/
theorem v30_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = layerOps (val_main_v13 (F := Ideal) x0 x1) (val_main_v17 (F := Ideal) x1) x0
          (transpose S128x128 [1, 0] x2 transposes_S128x128_S128x128_1_0) x3
          (transpose S128x128 [1, 0] x4 transposes_S128x128_S128x128_1_0) := rfl

/-- The first layer's result is the rectified combine step over the mean of the input features. -/
theorem v31_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = combine relu (meanAgg (agg x1) (cnt x1) x0) x0
          (transpose S128x128 [1, 0] x2 transposes_S128x128_S128x128_1_0) x3
          (transpose S128x128 [1, 0] x4 transposes_S128x128_S128x128_1_0) := by
  funext i
  obtain ⟨r, j, rfl⟩ : ∃ (r : Fin 100000) (j : Fin 128), i = ix2 r j := ⟨i 0, i 1, eq_ix2 i⟩
  rw [combine_ix2, ← layerOps_combineAt relu (agg x1) (cnt x1) x0, val_main_v31_apply, val_main_call0_v0_apply,
    val_main_call0_cst_apply, v30_eq, v13_eq, v17_eq, Ideal.maximumf_def, Ideal.ofBits_def, Ideal.ofBits_zero_f32]
  rfl

/-! ## The second layer, over the first layer's result carried as one function -/

/-- The second layer's scatter-add of gathered rows is the neighbourhood sum of the first layer's result. -/
theorem v41_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v41 (F := Ideal) x0 x1 x2 x3 x4 = agg x1 (val_main_v31 (F := Ideal) x0 x1 x2 x3 x4) := by
  unfold val_main_v41 val_main_v38
  generalize val_main_v31 (F := Ideal) x0 x1 x2 x3 x4 = h
  rfl

/-- The reference's last stage is the layer over the second neighbourhood sum, the in-degree, the first layer's result
    and the transposed second-layer weights. -/
theorem v58_eq_layerOps (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = layerOps (val_main_v41 (F := Ideal) x0 x1 x2 x3 x4) (val_main_v45 (F := Ideal) x1)
          (val_main_v31 (F := Ideal) x0 x1 x2 x3 x4)
          (transpose S128x128 [1, 0] x5 transposes_S128x128_S128x128_1_0) x6
          (transpose S128x128 [1, 0] x7 transposes_S128x128_S128x128_1_0) := by
  unfold val_main_v58 val_main_v57 val_main_v55 val_main_v52 val_main_v50
  generalize val_main_v41 (F := Ideal) x0 x1 x2 x3 x4 = a
  generalize val_main_v31 (F := Ideal) x0 x1 x2 x3 x4 = h
  rfl

/-- The reference's last stage is the plain combine step over the mean of the first layer's result. -/
theorem v58_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = combine id (meanAgg (agg x1) (cnt x1) (val_main_v31 (F := Ideal) x0 x1 x2 x3 x4))
          (val_main_v31 (F := Ideal) x0 x1 x2 x3 x4)
          (transpose S128x128 [1, 0] x5 transposes_S128x128_S128x128_1_0) x6
          (transpose S128x128 [1, 0] x7 transposes_S128x128_S128x128_1_0) := by
  rw [v58_eq_layerOps, v41_eq, v45_eq]
  generalize val_main_v31 (F := Ideal) x0 x1 x2 x3 x4 = h
  funext i
  obtain ⟨r, j, rfl⟩ : ∃ (r : Fin 100000) (j : Fin 128), i = ix2 r j := ⟨i 0, i 1, eq_ix2 i⟩
  rw [combine_ix2, ← layerOps_combineAt id (agg x1) (cnt x1) h, id_eq]

/-! ## The two layers together -/

/-- The reference's last stage is the two-layer function of the arguments. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = net (agg x1) (cnt x1) x0
          (transpose S128x128 [1, 0] x2 transposes_S128x128_S128x128_1_0) x3
          (transpose S128x128 [1, 0] x4 transposes_S128x128_S128x128_1_0)
          (transpose S128x128 [1, 0] x5 transposes_S128x128_S128x128_1_0) x6
          (transpose S128x128 [1, 0] x7 transposes_S128x128_S128x128_1_0) := by
  rw [v58_eq, v31_eq]
  rfl

end Cert.ReferenceIdeal.Stages

end
-- ==== Proof.lean ====
/-
  The certificate of a two-layer mean-aggregating graph convolution (100000 nodes, 128 features, 1600000 edges) written
  as two tiled combine kernels among host operations, against its whole-array reference.

  On the extended reals both programs compute, twice over, H ↦ post (mean(H) · Wlᵀ + H · Wrᵀ + b), where row r of mean(H)
  is row r of the neighbourhood sum of H (rows gathered by the edges' sources, added by their destinations) over
  max(in-degree r, 1). They differ in three spellings, none of which needs a finite input:
  * the kernel program multiplies the neighbourhood sum by 1 / max(in-degree, 1) where the reference divides by
    max(in-degree, 1): equal, because max(a, 1) is never zero and off zero the quotient is the product with the inverse;
  * the kernels add the bias after the second product, the reference before it: addition is commutative and associative;
  * the kernels take each product 4000 rows at a time into a zero accumulator, the reference whole: the same sums.
  The neighbourhood sum and the in-degree are the same operations on both sides and are never opened.

  The frames of the two kernel programs are the generated ones; the reference's is its generated run with the result
  dropped; the ideal pass rewrote nothing, so there is nothing to preserve.
-/
import proofs.«121338_j34411277976464_1_alg».proof.Defs
import proofs.«121338_j34411277976464_1_alg».proof.Proof.Gen.Kernel
import proofs.«121338_j34411277976464_1_alg».proof.Proof.Gen.Kernel.Frame
import proofs.«121338_j34411277976464_1_alg».proof.Proof.Gen.KernelIdeal
import proofs.«121338_j34411277976464_1_alg».proof.Proof.Gen.KernelIdeal.Frame
import proofs.«121338_j34411277976464_1_alg».proof.Proof.Gen.ReferenceIdeal
import proofs.«121338_j34411277976464_1_alg».proof.Proof.Gen.ReferenceIdeal.Run
import proofs.«121338_j34411277976464_1_alg».proof.Proof.Gen.ReferenceIdeal.Read
import proofs.«121338_j34411277976464_1_alg».proof.Proof.Gen.Pre_finite_inputs
import proofs.«121338_j34411277976464_1_alg».proof.Proof.KHost1
import proofs.«121338_j34411277976464_1_alg».proof.Proof.RefValue

noncomputable section

namespace Cert.Proof

open Idealize.ShloMosaic Idealize.SL.Sem

/-- The neighbourhood sum is one function, whichever program's records spell it. -/
theorem agg_eq : Cert.ReferenceIdeal.Stages.agg = Cert.KernelIdeal.Host.agg := rfl

/-- So is the in-degree. -/
theorem cnt_eq : Cert.ReferenceIdeal.Stages.cnt = Cert.KernelIdeal.Host.cnt := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the two-layer function of the arguments in their
    result arrays. -/
theorem algebraic : Cert.algebraic_KernelIdeal_ReferenceIdeal := by
  intro m ρ m' ρ' _ hagree
  refine ⟨fun c => Cert.KernelIdeal.Host.result m c, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.Stages.result_eq, agg_eq, cnt_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
